-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S4x4096 : Shape := ⟨2, ![4, 4096]⟩
abbrev S4096x4 : Shape := ⟨2, ![4096, 4]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4x4096 : S_.BroadcastsInDim S4x4096 (![] : Fin 0 → Fin S4x4096.rank)
  reducesTo_S4x4096_S_d0_1 : S4x4096.ReducesTo [0, 1] S_
  bcast_S_S4096x4 : S_.BroadcastsInDim S4096x4 (![] : Fin 0 → Fin S4096x4.rank)
  reducesTo_S4096x4_S_d0_1 : S4096x4.ReducesTo [0, 1] S_

variable [Facts]

def fn_part1 {F : FTy → Type} [FloatOps F] (main_v13 : IVec S_ 1) (main_v16 : IVec S4096x4 1) : IVec S_ 1 :=
  let main_c_5 : IVec S_ 1 := constantI S_ 1 1#1
  let main_v17 : IVec S_ 1 := (fun x v => Host.reduce IntOp.andi x v reducesTo_S4096x4_S_d0_1 h_S_) main_v16 main_c_5
  let main_v18 : IVec S_ 1 := andi main_v13 main_v17
  main_v18

def fn {F : FTy → Type} [FloatOps F] (main_arg0 : FVec F S2x4096x4096 .f32) (main_arg1 : FVec F S4096x4096 .f32) (main_arg2 : FVec F S4x4096 .f32) (main_arg3 : FVec F S4096x4 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4x4096 .f32 := Host.absf main_arg2
  let main_cst_2 : FVec F S_ .f32 := constant S_ .f32 0x7F800000#32
  let main_v10 : FVec F S4x4096 .f32 := broadcastInDim S4x4096 ![] bcast_S_S4x4096 main_cst_2
  let main_v11 : IVec S4x4096 1 := cmpf .olt main_v9 main_v10
  let main_c_3 : IVec S_ 1 := constantI S_ 1 1#1
  let main_v12 : IVec S_ 1 := (fun x v => Host.reduce IntOp.andi x v reducesTo_S4x4096_S_d0_1 h_S_) main_v11 main_c_3
  let main_v13 : IVec S_ 1 := andi main_v8 main_v12
  let main_v14 : FVec F S4096x4 .f32 := Host.absf main_arg3
  let main_cst_4 : FVec F S_ .f32 := constant S_ .f32 0x7F800000#32
  let main_v15 : FVec F S4096x4 .f32 := broadcastInDim S4096x4 ![] bcast_S_S4096x4 main_cst_4
  let main_v16 : IVec S4096x4 1 := cmpf .olt main_v14 main_v15
  fn_part1 (F := F) main_v13 main_v16
-- ==== Kernel.lean ====
abbrev S2x4096x4096 : Shape := ⟨3, ![2, 4096, 4096]⟩
abbrev S4096x4096 : Shape := ⟨2, ![4096, 4096]⟩
abbrev S4x4096 : Shape := ⟨2, ![4, 4096]⟩
abbrev S4096x4 : Shape := ⟨2, ![4096, 4]⟩
abbrev S8192x4096 : Shape := ⟨2, ![8192, 4096]⟩
abbrev S1024x512 : Shape := ⟨2, ![1024, 512]⟩
abbrev S4x512 : Shape := ⟨2, ![4, 512]⟩
abbrev S1024x4 : Shape := ⟨2, ![1024, 4]⟩
abbrev S1024x1024 : Shape := ⟨2, ![1024, 1024]⟩

abbrev nBuf : Space → Nat
  | .hbm => 7
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4x4096, .f32⟩
  | .hbm, ⟨3, _⟩ => ⟨S4096x4, .f32⟩
  | .hbm, ⟨4, _⟩ => ⟨S8192x4096, .f32⟩
  | .hbm, ⟨5, _⟩ => ⟨S8192x4096, .f32⟩
  | .hbm, ⟨6, _⟩ => ⟨S2x4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S4x512, .f32⟩
  | .local _ .vmem, ⟨5, _⟩ => ⟨S4x512, .f32⟩
  | .local _ .vmem, ⟨6, _⟩ => ⟨S1024x4, .f32⟩
  | .local _ .vmem, ⟨7, _⟩ => ⟨S1024x4, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x4, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x4096x4096_S8192x4096 : S2x4096x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S4x512_S4x512_0_0 : ∀ a, (![0, 0] : Fin 2 → Nat) a + S4x512.size a ≤ S4x512.size a
  h_S4x512 : 0 < S4x512.numel
  shapeCasts_S8192x4096_S2x4096x4096 : S8192x4096.ShapeCasts S2x4096x4096
  dot_S1024x512_S1024x512_S1024x1024_1_1_0_0_n_n_wf : DotDims.WF S1024x512 S1024x512 S1024x1024 [1] [1] [0] [0] [] []
  dot_S1024x512_S4x512_S1024x4_1_1_0_0_n_n_wf : DotDims.WF S1024x512 S4x512 S1024x4 [1] [1] [0] [0] [] []
  dot_S1024x4_S1024x4_S1024x1024_1_1_0_0_n_n_wf : DotDims.WF S1024x4 S1024x4 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x4096.size a
  hwx0_2 : ∀ i : grid0.Coords, EltTy.bits .f32 = 32 ∨ (Rect.block (s := S4x4096) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4.size a ≤ S4096x4.size a
  hwx0_3 : ∀ i : grid0.Coords, EltTy.bits .f32 = 32 ∨ (Rect.block (s := S4096x4) S1024x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S4x512_S1024x4_1_1_0_0_n_n : DotDims S1024x512 S4x512 S1024x4 where
  lhsContracting := [1]
  rhsContracting := [1]
  lhsNonContracting := [0]
  rhsNonContracting := [0]
  lhsBatch := []
  rhsBatch := []
  wf := dot_S1024x512_S4x512_S1024x4_1_1_0_0_n_n_wf
def dot_S1024x4_S1024x4_S1024x1024_1_1_0_0_n_n : DotDims S1024x4 S1024x4 S1024x1024 where
  lhsContracting := [1]
  rhsContracting := [1]
  lhsNonContracting := [0]
  rhsNonContracting := [0]
  lhsBatch := []
  rhsBatch := []
  wf := dot_S1024x4_S1024x4_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S4x4096 : Shape := ⟨2, ![4, 4096]⟩
abbrev S4096x4 : Shape := ⟨2, ![4096, 4]⟩
abbrev S2x4096x4 : Shape := ⟨3, ![2, 4096, 4]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4x4096, .f32⟩
  | .hbm, ⟨3, _⟩ => ⟨S4096x4, .f32⟩
  | .hbm, ⟨4, _⟩ => ⟨S2x4096x4096, .f32⟩
  | .hbm, ⟨5, _⟩ => ⟨S2x4096x4, .f32⟩
  | .hbm, ⟨6, _⟩ => ⟨S2x4096x4096, .f32⟩
  | .hbm, ⟨7, _⟩ => ⟨S_, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S2x4096x4096 : S_.BroadcastsInDim S2x4096x4096 (![] : Fin 0 → Fin S2x4096x4096.rank)
  dot_S2x4096x4096_S4096x4096_S2x4096x4096_2_1_01_0_n_n_wf : DotDims.WF S2x4096x4096 S4096x4096 S2x4096x4096 [2] [1] [0, 1] [0] [] []
  dot_S2x4096x4096_S4x4096_S2x4096x4_2_1_01_0_n_n_wf : DotDims.WF S2x4096x4096 S4x4096 S2x4096x4 [2] [1] [0, 1] [0] [] []
  dot_S2x4096x4_S4096x4_S2x4096x4096_2_1_01_0_n_n_wf : DotDims.WF S2x4096x4 S4096x4 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf
def dot_S2x4096x4096_S4x4096_S2x4096x4_2_1_01_0_n_n : DotDims S2x4096x4096 S4x4096 S2x4096x4 where
  lhsContracting := [2]
  rhsContracting := [1]
  lhsNonContracting := [0, 1]
  rhsNonContracting := [0]
  lhsBatch := []
  rhsBatch := []
  wf := dot_S2x4096x4096_S4x4096_S2x4096x4_2_1_01_0_n_n_wf
def dot_S2x4096x4_S4096x4_S2x4096x4096_2_1_01_0_n_n : DotDims S2x4096x4 S4096x4 S2x4096x4096 where
  lhsContracting := [2]
  rhsContracting := [1]
  lhsNonContracting := [0, 1]
  rhsNonContracting := [0]
  lhsBatch := []
  rhsBatch := []
  wf := dot_S2x4096x4_S4096x4_S2x4096x4096_2_1_01_0_n_n_wf

class Facts : Prop extends Facts₀ where

variable [Facts]
-- ==== Proof.Pieces.lean ====
/-
  What each control case of the kernel body leaves in the two accumulators it carries from one grid step to the
  next, and in the output block, as the body's own pure terms.

  Along the contraction axis (the last grid axis, eight steps) the body runs in one of three ways. At the first step
  it resets both accumulators to zero and then adds the step's products; at a middle step it adds the step's products to
  what the step before left; at the last step it does the same and then writes the output block from the two
  accumulators it has just updated. Every load and store of the body is of a whole buffer, so what a buffer holds
  after the body is the payload of the last store into it, and a load after a store reads that store's payload.
-/
import proofs.«142821_j91122026152535_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen
open Idealize.ShloMosaic.Pipeline (Dat)

variable {F : FTy → Type} [FloatOps F]

theorem hz : (![0, 0] : Fin 2 → Nat) = fun _ => 0 := funext fun a => by fin_cases a <;> rfl

/-! Case A (the first step along the contraction axis): both accumulators are reset to zero, then updated. -/

theorem acc_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S4x512 .f32) (harg5 : arg5.IsWhole) (arg6 : Memref sig .tc .vmem S1024x4 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x4 .f32) (harg9 : arg9.IsWhole) (hc0 : cond0_0 i) (hc1 : ¬cond0_1 i) (x0 : Vec F S1024x512 .f32) (x1 : Vec F S1024x512 .f32) (x2 : Vec F S4x512 .f32) (x3 : Vec F S1024x4 .f32) :
    sout0_A_0 c i arg3 harg3 arg4 harg4 arg5 harg5 arg6 harg6 arg7 harg7 arg8 harg8 arg9 harg9 hc0 hc1 x0 x1 x2 x3 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1024) hz]
  simp only [View.readAt_eq_ld, harg3.read_unread, harg4.read_unread, harg5.read_unread, harg6.read_unread, harg8.read_unread, harg9.read_unread,
    View.ld_unit_zero (S := S1024x512) hz, View.ld_unit_zero (S := S4x512) hz, View.ld_unit_zero (S := S1024x4) hz, View.ld_unit_zero (S := S1024x1024) hz,
    View.readCov_unit_zero (S := S1024x1024) _ hz, View.readCov_unit_zero (S := S1024x4) _ hz]

theorem low_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S4x512 .f32) (harg5 : arg5.IsWhole) (arg6 : Memref sig .tc .vmem S1024x4 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x4 .f32) (harg9 : arg9.IsWhole) (hc0 : cond0_0 i) (hc1 : ¬cond0_1 i) (x0 : Vec F S1024x512 .f32) (x1 : Vec F S1024x512 .f32) (x2 : Vec F S4x512 .f32) (x3 : Vec F S1024x4 .f32) :
    sout0_A_1 c i arg3 harg3 arg4 harg4 arg5 harg5 arg6 harg6 arg7 harg7 arg8 harg8 arg9 harg9 hc0 hc1 x0 x1 x2 x3 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x4) hz]
  simp only [View.readAt_eq_ld, harg3.read_unread, harg4.read_unread, harg5.read_unread, harg6.read_unread, harg8.read_unread, harg9.read_unread,
    View.ld_unit_zero (S := S1024x512) hz, View.ld_unit_zero (S := S4x512) hz, View.ld_unit_zero (S := S1024x4) hz, View.ld_unit_zero (S := S1024x1024) hz,
    View.readCov_unit_zero (S := S1024x1024) _ hz, View.readCov_unit_zero (S := S1024x4) _ hz]

/-! Case B (a middle step): both accumulators are updated over what the step before left. -/

theorem acc_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S4x512 .f32) (harg5 : arg5.IsWhole) (arg6 : Memref sig .tc .vmem S1024x4 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x4 .f32) (harg9 : arg9.IsWhole) (hc0 : ¬cond0_0 i) (hc1 : ¬cond0_1 i) (x0 : Vec F S1024x512 .f32) (x1 : Vec F S1024x512 .f32) (x2 : Vec F S4x512 .f32) (x3 : Vec F S1024x4 .f32) (xs0 : Vec F S1024x1024 .f32) (xs1 : Vec F S1024x4 .f32) :
    sout0_B_0 c i arg3 harg3 arg4 harg4 arg5 harg5 arg6 harg6 arg7 harg7 arg8 harg8 arg9 harg9 hc0 hc1 x0 x1 x2 x3 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg4.read_unread, harg5.read_unread, harg6.read_unread, harg8.read_unread, harg9.read_unread,
    View.ld_unit_zero (S := S1024x512) hz, View.ld_unit_zero (S := S4x512) hz, View.ld_unit_zero (S := S1024x4) hz, View.ld_unit_zero (S := S1024x1024) hz,
    View.readCov_unit_zero (S := S1024x1024) _ hz, View.readCov_unit_zero (S := S1024x4) _ hz]

theorem low_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S4x512 .f32) (harg5 : arg5.IsWhole) (arg6 : Memref sig .tc .vmem S1024x4 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x4 .f32) (harg9 : arg9.IsWhole) (hc0 : ¬cond0_0 i) (hc1 : ¬cond0_1 i) (x0 : Vec F S1024x512 .f32) (x1 : Vec F S1024x512 .f32) (x2 : Vec F S4x512 .f32) (x3 : Vec F S1024x4 .f32) (xs0 : Vec F S1024x1024 .f32) (xs1 : Vec F S1024x4 .f32) :
    sout0_B_1 c i arg3 harg3 arg4 harg4 arg5 harg5 arg6 harg6 arg7 harg7 arg8 harg8 arg9 harg9 hc0 hc1 x0 x1 x2 x3 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg4.read_unread, harg5.read_unread, harg6.read_unread, harg8.read_unread, harg9.read_unread,
    View.ld_unit_zero (S := S1024x512) hz, View.ld_unit_zero (S := S4x512) hz, View.ld_unit_zero (S := S1024x4) hz, View.ld_unit_zero (S := S1024x1024) hz,
    View.readCov_unit_zero (S := S1024x1024) _ hz, View.readCov_unit_zero (S := S1024x4) _ hz]

/-! Case C (the last step): both accumulators are updated, then the output block is written from them. -/

theorem acc_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S4x512 .f32) (harg5 : arg5.IsWhole) (arg6 : Memref sig .tc .vmem S1024x4 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x4 .f32) (harg9 : arg9.IsWhole) (hc0 : ¬cond0_0 i) (hc1 : cond0_1 i) (x0 : Vec F S1024x512 .f32) (x1 : Vec F S1024x512 .f32) (x2 : Vec F S4x512 .f32) (x3 : Vec F S1024x4 .f32) (xs0 : Vec F S1024x1024 .f32) (xs1 : Vec F S1024x4 .f32) :
    sout0_C_0 c i arg3 harg3 arg4 harg4 arg5 harg5 arg6 harg6 arg7 harg7 arg8 harg8 arg9 harg9 hc0 hc1 x0 x1 x2 x3 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread,
    View.ld_unit_zero (S := S1024x512) hz, View.ld_unit_zero (S := S4x512) hz, View.ld_unit_zero (S := S1024x4) hz, View.ld_unit_zero (S := S1024x1024) hz,
    View.readCov_unit_zero (S := S1024x1024) _ hz, View.readCov_unit_zero (S := S1024x4) _ hz]

theorem low_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S4x512 .f32) (harg5 : arg5.IsWhole) (arg6 : Memref sig .tc .vmem S1024x4 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x4 .f32) (harg9 : arg9.IsWhole) (hc0 : ¬cond0_0 i) (hc1 : cond0_1 i) (x0 : Vec F S1024x512 .f32) (x1 : Vec F S1024x512 .f32) (x2 : Vec F S4x512 .f32) (x3 : Vec F S1024x4 .f32) (xs0 : Vec F S1024x1024 .f32) (xs1 : Vec F S1024x4 .f32) :
    sout0_C_1 c i arg3 harg3 arg4 harg4 arg5 harg5 arg6 harg6 arg7 harg7 arg8 harg8 arg9 harg9 hc0 hc1 x0 x1 x2 x3 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread,
    View.ld_unit_zero (S := S1024x512) hz, View.ld_unit_zero (S := S4x512) hz, View.ld_unit_zero (S := S1024x4) hz, View.ld_unit_zero (S := S1024x1024) hz,
    View.readCov_unit_zero (S := S1024x1024) _ hz, View.readCov_unit_zero (S := S1024x4) _ hz]

theorem out_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S4x512 .f32) (harg5 : arg5.IsWhole) (arg6 : Memref sig .tc .vmem S1024x4 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x4 .f32) (harg9 : arg9.IsWhole) (hc0 : ¬cond0_0 i) (hc1 : cond0_1 i) (x0 : Vec F S1024x512 .f32) (x1 : Vec F S1024x512 .f32) (x2 : Vec F S4x512 .f32) (x3 : Vec F S1024x4 .f32) (xs0 : Vec F S1024x1024 .f32) (xs1 : Vec F S1024x4 .f32) :
    out0_C_4 c i arg3 harg3 arg4 harg4 arg5 harg5 arg6 harg6 arg7 harg7 arg8 harg8 arg9 harg9 hc0 hc1 x0 x1 x2 x3 xs0 xs1 = k0_pay6 (k0_pay5 x0 x2 xs1) x3 (k0_pay4 x0 x1 xs0) := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread,
    View.ld_unit_zero (S := S1024x512) hz, View.ld_unit_zero (S := S4x512) hz, View.ld_unit_zero (S := S1024x4) hz, View.ld_unit_zero (S := S1024x1024) hz,
    View.readCov_unit_zero (S := S1024x1024) _ hz, View.readCov_unit_zero (S := S1024x4) _ hz]

end Cert.KernelIdeal.Pieces

end
-- ==== Proof.Blocks.lean ====
/-
  The blocks the kernel body reads at a grid step, as entries of the whole arrays.

  The grid is 8 × 4 × 8: step `n` (row-major, the last axis fastest) has coordinates `(n / 32, n / 8 % 4, n % 8)` —
  the row tile of the flattened input, the row tile of the weight (a column tile of the output), and the position
  along the contraction axis. At step `n`
    * the input block is rows `1024 · (n / 32) …` and columns `512 · (n % 8) …` of the flattened input,
    * the weight block is rows `1024 · (n / 8 % 4) …` and the same columns of the weight,
    * the down-projection block is all four rows and the same columns of the down-projection,
    * the up-projection block is rows `1024 · (n / 8 % 4) …` and all four columns of the up-projection.
  An entry of a block is the array's entry at the block's offset plus the local coordinate.
-/
import proofs.«142821_j91122026152535_1_alg».proof.Proof.Gen.KernelIdeal.Frame
import Idealize.ShloMosaic.Lib.ValueIdx
import Idealize.ShloMosaic.Lib.Pipeline.Value

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The row of the flattened input that local row `p` is at step `n`. -/
def rowOf (n : ℕ) (p : Fin 1024) : Fin 8192 :=
  ⟨n / 32 % 8 * 1024 + p.val, by have := p.isLt; have := Nat.mod_lt (n / 32) (by norm_num : 0 < 8); omega⟩
/-- The row of the weight (and of the up-projection) that local row `q` is at step `n`. -/
def colOf (n : ℕ) (q : Fin 1024) : Fin 4096 :=
  ⟨n / 8 % 4 * 1024 + q.val, by have := q.isLt; have := Nat.mod_lt (n / 8) (by norm_num : 0 < 4); omega⟩
/-- The position along the contraction axis that local position `kk` is at step `n`. -/
def posOf (n : ℕ) (kk : Fin 512) : Fin 4096 :=
  ⟨n % 8 * 512 + kk.val, by have := kk.isLt; have := Nat.mod_lt n (by norm_num : 0 < 8); omega⟩

/-- The arrays as the kernel finds them, and the blocks of a step, at their literal types. -/
abbrev xarr (c : Dev nD) : Vec F S8192x4096 .f32 := V m c main_v0
abbrev warr (c : Dev nD) : Vec F S4096x4096 .f32 := V m c main_arg1
abbrev aarr (c : Dev nD) : Vec F S4x4096 .f32 := V m c main_arg2
abbrev barr (c : Dev nD) : Vec F S4096x4 .f32 := V m c main_arg3
abbrev xblk (c : Dev nD) (t : Fin cfg0.N) : Vec F S1024x512 .f32 := iblk m c 0 t
abbrev wblk (c : Dev nD) (t : Fin cfg0.N) : Vec F S1024x512 .f32 := iblk m c 1 t
abbrev ablk (c : Dev nD) (t : Fin cfg0.N) : Vec F S4x512 .f32 := iblk m c 2 t
abbrev bblk (c : Dev nD) (t : Fin cfg0.N) : Vec F S1024x4 .f32 := iblk m c 3 t

/-- The windows' block indices at every step, from the step's coordinates. -/
theorem index0 : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem index1 : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)
theorem index2 : ∀ t : Fin cfg0.N, win0_2.index t 0 = 0 ∧ win0_2.index t 1 = t.val % 8 :=
  (by decide +kernel : ∀ t : Fin grid0.N, win0_2.index t 0 = 0 ∧ win0_2.index t 1 = t.val % 8)
theorem index3 : ∀ t : Fin cfg0.N, win0_3.index t 0 = t.val / 8 % 4 ∧ win0_3.index t 1 = 0 :=
  (by decide +kernel : ∀ t : Fin grid0.N, win0_3.index t 0 = t.val / 8 % 4 ∧ win0_3.index t 1 = 0)
theorem index4 : ∀ t : Fin cfg0.N, win0_4.index t 0 = t.val / 32 ∧ win0_4.index t 1 = t.val / 8 % 4 :=
  (by decide +kernel : ∀ t : Fin grid0.N, win0_4.index t 0 = t.val / 32 ∧ win0_4.index t 1 = t.val / 8 % 4)

theorem xblk_apply (c : Dev nD) (t : Fin cfg0.N) (p : Fin 1024) (kk : Fin 512) :
    xblk m c t (ix2 p kk) = xarr m c (ix2 (rowOf t.val p) (posOf t.val kk)) := by
  have hN : t.val < 256 := lt_of_lt_of_eq t.isLt N_0
  unfold xblk xarr iblk
  rw [View.read_apply]
  show V m c main_v0 _ = V m c main_v0 _
  congr 1
  funext a
  apply Fin.ext
  match a with
  | ⟨0, _⟩ => show win0_0.index t 0 * 1024 + 1 * p.val = t.val / 32 % 8 * 1024 + p.val; rw [(index0 t).1]; omega
  | ⟨1, _⟩ => show win0_0.index t 1 * 512 + 1 * kk.val = t.val % 8 * 512 + kk.val; rw [(index0 t).2]; omega

theorem wblk_apply (c : Dev nD) (t : Fin cfg0.N) (q : Fin 1024) (kk : Fin 512) :
    wblk m c t (ix2 q kk) = warr m c (ix2 (colOf t.val q) (posOf t.val kk)) := by
  unfold wblk warr iblk
  rw [View.read_apply]
  show V m c main_arg1 _ = V m c main_arg1 _
  congr 1
  funext a
  apply Fin.ext
  match a with
  | ⟨0, _⟩ => show win0_1.index t 0 * 1024 + 1 * q.val = t.val / 8 % 4 * 1024 + q.val; rw [(index1 t).1]; omega
  | ⟨1, _⟩ => show win0_1.index t 1 * 512 + 1 * kk.val = t.val % 8 * 512 + kk.val; rw [(index1 t).2]; omega

theorem ablk_apply (c : Dev nD) (t : Fin cfg0.N) (r : Fin 4) (kk : Fin 512) :
    ablk m c t (ix2 r kk) = aarr m c (ix2 r (posOf t.val kk)) := by
  unfold ablk aarr iblk
  rw [View.read_apply]
  show V m c main_arg2 _ = V m c main_arg2 _
  congr 1
  funext a
  apply Fin.ext
  match a with
  | ⟨0, _⟩ => show win0_2.index t 0 * 4 + 1 * r.val = r.val; rw [(index2 t).1]; omega
  | ⟨1, _⟩ => show win0_2.index t 1 * 512 + 1 * kk.val = t.val % 8 * 512 + kk.val; rw [(index2 t).2]; omega

theorem bblk_apply (c : Dev nD) (t : Fin cfg0.N) (q : Fin 1024) (r : Fin 4) :
    bblk m c t (ix2 q r) = barr m c (ix2 (colOf t.val q) r) := by
  unfold bblk barr iblk
  rw [View.read_apply]
  show V m c main_arg3 _ = V m c main_arg3 _
  congr 1
  funext a
  apply Fin.ext
  match a with
  | ⟨0, _⟩ => show win0_3.index t 0 * 1024 + 1 * q.val = t.val / 8 % 4 * 1024 + q.val; rw [(index3 t).1]; omega
  | ⟨1, _⟩ => show win0_3.index t 1 * 4 + 1 * r.val = r.val; rw [(index3 t).2]; omega

end Cert.KernelIdeal.Blocks

end
-- ==== Proof.Steps.lean ====
/-
  The recurrence of the two accumulators over the grid steps, and the output block at a last step.

  Step `n` of the grid is the first step along the contraction axis when `n % 8 = 0` and the last when `n % 8 = 7`.
  What the accumulators hold after step `n`:
    * at a first step, the update of the zero accumulators by the step's blocks;
    * at every other step, the update of what step `n - 1` left by the step's blocks.
  At a last step the output block is written from the accumulators as that same step leaves them.
-/
import proofs.«142821_j91122026152535_1_alg».proof.Proof.Pieces
import proofs.«142821_j91122026152535_1_alg».proof.Proof.Blocks

noncomputable section

namespace Cert.KernelIdeal.Steps

open Idealize.ShloMosaic Idealize.ShloMosaic.TcCoe Idealize.SL.Sem Idealize.ShloMosaic.ValueIdx
open Cert.KernelIdeal Cert.KernelIdeal.Gen Cert.KernelIdeal.Blocks

variable {F : FTy → Type} [FloatOps F]
variable (m : (ℓ : Loc nD τ sig) → Buf (Elt F) ℓ)

/-- The main accumulator and the low-rank accumulator after step `t`. -/
abbrev accAt (c : Dev nD) (n : ℕ) (h : n < cfg0.N) : Vec F S1024x1024 .f32 := (outsAt0 m c n h).2.1
abbrev lowAt (c : Dev nD) (n : ℕ) (h : n < cfg0.N) : Vec F S1024x4 .f32 := (outsAt0 m c n h).2.2
/-- The output block's staging buffer after step `t`. -/
abbrev outAt (c : Dev nD) (n : ℕ) (h : n < cfg0.N) : Vec F S1024x1024 .f32 := (outsAt0 m c n h).1

theorem reset (c : Dev nD) (t : Fin cfg0.N) (h0 : t.val % 8 = 0) :
    accAt m c t.val t.isLt = k0_pay4 (xblk m c t) (wblk m c t) (k0_pay1 (F := F))
    ∧ lowAt m c t.val t.isLt = k0_pay5 (xblk m c t) (ablk m c t) (k0_pay2 (F := F)) := by
  have h1 : ¬t.val % 8 = 7 := by omega
  unfold accAt lowAt
  rw [outsAt0_A m c t h0 h1]
  dsimp only
  exact ⟨Pieces.acc_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (iblk m c 0 t) (iblk m c 1 t) (iblk m c 2 t) (iblk m c 3 t),
    Pieces.low_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (iblk m c 0 t) (iblk m c 1 t) (iblk m c 2 t) (iblk m c 3 t)⟩

theorem step (c : Dev nD) (t : Fin cfg0.N) (h0 : ¬t.val % 8 = 0) :
    accAt m c t.val t.isLt = k0_pay4 (xblk m c t) (wblk m c t) (accAt m c (t.val - 1) (Nat.lt_of_le_of_lt (Nat.sub_le _ _) t.isLt))
    ∧ lowAt m c t.val t.isLt = k0_pay5 (xblk m c t) (ablk m c t) (lowAt m c (t.val - 1) (Nat.lt_of_le_of_lt (Nat.sub_le _ _) t.isLt)) := by
  unfold accAt lowAt
  by_cases h1 : t.val % 8 = 7
  · rw [outsAt0_C m c t h0 h1]
    dsimp only
    exact ⟨Pieces.acc_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      Pieces.low_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨Pieces.acc_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      Pieces.low_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩

theorem last (c : Dev nD) (t : Fin cfg0.N) (h1 : t.val % 8 = 7) :
    outAt m c t.val t.isLt = k0_pay6 (lowAt m c t.val t.isLt) (bblk m c t) (accAt m c t.val t.isLt) := by
  have h0 : ¬t.val % 8 = 0 := by omega
  unfold outAt accAt lowAt
  rw [outsAt0_C m c t h0 h1]
  dsimp only
  rw [Pieces.acc_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    Pieces.low_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]
  exact Pieces.out_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.Payload.lean ====
/-
  The kernel body's arithmetic, read at an index over the extended reals.

  Each store of the body writes one pure function of the values the body loaded (the generated skeleton's payloads).
  At the ideal instance a change of float format is the identity and a matrix product into a zero accumulator is the
  plain sum of products over the contraction index, so:
    * the two resets write zero everywhere;
    * the main accumulator's update adds, at `(p, q)`, the contraction of row `p` of the input block with row `q`
      of the weight block;
    * the low-rank accumulator's update adds, at `(p, r)`, the contraction of row `p` of the input block with row `r`
      of the down-projection block;
    * the last step writes, at `(p, q)`, the main accumulator plus the scale times the contraction over the rank of
      row `p` of the low-rank accumulator with row `q` of the up-projection block.
-/
import proofs.«142821_j91122026152535_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! ### The two resets -/

theorem pay1_apply (j : S1024x1024.Idx) : k0_pay1 (F := Ideal) j = 0 := by
  unfold k0_pay1
  rw [shapeCast_self, broadcast_apply]
  exact Ideal.ofBits_zero_f32

theorem pay2_apply (j : S1024x4.Idx) : k0_pay2 (F := Ideal) j = 0 := by
  unfold k0_pay2
  rw [shapeCast_self, broadcast_apply]
  exact Ideal.ofBits_zero_f32

/-! ### The product `mmW`: operand indices of the dimension numbers, axis by axis

Both operands are contracted along their axis `1`; the left operand's axis `0` is the output's axis `0`, the right
operand's axis `0` is the output's axis `1`. -/

private theorem lhs_mmW_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
private theorem lhs_mmW_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
private theorem rhs_mmW_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
private theorem rhs_mmW_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product into the zero accumulator, at `(p, q)`: the sum over the contracted coordinate of row `p` of the left
    operand times row `q` of the right one. The sum over the record's contraction index is carried to the sum over the
    coordinate by the bijection between a one-axis index and its coordinate. -/
private theorem mmW_apply (l : FVec Ideal S1024x512 .bf16) (r : FVec Ideal S1024x512 .bf16) (p : Fin 1024) (q : Fin 1024) :
    matmul dot_S1024x512_S1024x512_S1024x1024_1_1_0_0_n_n none l r (constant (F := Ideal) S1024x1024 .f32 0x00000000#32) (ix2 p q)
      = ∑ kk : Fin 512, l (ix2 p kk) * r (ix2 q kk) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_mmW_0 _ _
    | ⟨1, _⟩ => exact (lhs_mmW_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_mmW_0 _ _
    | ⟨1, _⟩ => exact (rhs_mmW_1 _ _).trans hk)
  rw [el, er]

/-! ### The product `mmA`: operand indices of the dimension numbers, axis by axis

Both operands are contracted along their axis `1`; the left operand's axis `0` is the output's axis `0`, the right
operand's axis `0` is the output's axis `1`. -/

private theorem lhs_mmA_0 (i : S1024x4.Idx) (q : dot_S1024x512_S4x512_S1024x4_1_1_0_0_n_n.contr.Idx) :
    (dot_S1024x512_S4x512_S1024x4_1_1_0_0_n_n.lhsIdx i q 0).val = (i 0).val := by
  unfold DotDims.lhsIdx
  rw [dif_neg (show ¬(0 : Fin S1024x512.rank) ∈ dot_S1024x512_S4x512_S1024x4_1_1_0_0_n_n.lhsBatch by decide), dif_pos (show (0 : Fin S1024x512.rank) ∈ dot_S1024x512_S4x512_S1024x4_1_1_0_0_n_n.lhsNonContracting by decide)]
  rfl
private theorem lhs_mmA_1 (i : S1024x4.Idx) (q : dot_S1024x512_S4x512_S1024x4_1_1_0_0_n_n.contr.Idx) :
    (dot_S1024x512_S4x512_S1024x4_1_1_0_0_n_n.lhsIdx i q 1).val = (q ⟨0, by decide⟩).val :=
  dot_S1024x512_S4x512_S1024x4_1_1_0_0_n_n.lhsIdx_val_of_single rfl i q
private theorem rhs_mmA_0 (i : S1024x4.Idx) (q : dot_S1024x512_S4x512_S1024x4_1_1_0_0_n_n.contr.Idx) :
    (dot_S1024x512_S4x512_S1024x4_1_1_0_0_n_n.rhsIdx i q 0).val = (i 1).val := by
  unfold DotDims.rhsIdx
  rw [dif_neg (show ¬(0 : Fin S4x512.rank) ∈ dot_S1024x512_S4x512_S1024x4_1_1_0_0_n_n.rhsBatch by decide), dif_pos (show (0 : Fin S4x512.rank) ∈ dot_S1024x512_S4x512_S1024x4_1_1_0_0_n_n.rhsNonContracting by decide)]
  rfl
private theorem rhs_mmA_1 (i : S1024x4.Idx) (q : dot_S1024x512_S4x512_S1024x4_1_1_0_0_n_n.contr.Idx) :
    (dot_S1024x512_S4x512_S1024x4_1_1_0_0_n_n.rhsIdx i q 1).val = (q ⟨0, by decide⟩).val :=
  dot_S1024x512_S4x512_S1024x4_1_1_0_0_n_n.rhsIdx_val_of_single rfl i q

/-- The product into the zero accumulator, at `(p, q)`: the sum over the contracted coordinate of row `p` of the left
    operand times row `q` of the right one. The sum over the record's contraction index is carried to the sum over the
    coordinate by the bijection between a one-axis index and its coordinate. -/
private theorem mmA_apply (l : FVec Ideal S1024x512 .bf16) (r : FVec Ideal S4x512 .bf16) (p : Fin 1024) (q : Fin 4) :
    matmul dot_S1024x512_S4x512_S1024x4_1_1_0_0_n_n none l r (constant (F := Ideal) S1024x4 .f32 0x00000000#32) (ix2 p q)
      = ∑ kk : Fin 512, l (ix2 p kk) * r (ix2 q kk) := by
  simp only [matmul]
  rw [Ideal.matmul_constant_zero_apply, ← Equiv.sum_comp (contrEquiv1 dot_S1024x512_S4x512_S1024x4_1_1_0_0_n_n 512 rfl rfl).symm]
  refine Finset.sum_congr rfl fun k _ => ?_
  have hk := contrEquiv1_symm_val dot_S1024x512_S4x512_S1024x4_1_1_0_0_n_n 512 rfl rfl k
  have el : dot_S1024x512_S4x512_S1024x4_1_1_0_0_n_n.lhsIdx (ix2 p q) ((contrEquiv1 dot_S1024x512_S4x512_S1024x4_1_1_0_0_n_n 512 rfl rfl).symm k) = ix2 p k := funext fun a => Fin.ext (by
    match a with
    | ⟨0, _⟩ => exact lhs_mmA_0 _ _
    | ⟨1, _⟩ => exact (lhs_mmA_1 _ _).trans hk)
  have er : dot_S1024x512_S4x512_S1024x4_1_1_0_0_n_n.rhsIdx (ix2 p q) ((contrEquiv1 dot_S1024x512_S4x512_S1024x4_1_1_0_0_n_n 512 rfl rfl).symm k) = ix2 q k := funext fun a => Fin.ext (by
    match a with
    | ⟨0, _⟩ => exact rhs_mmA_0 _ _
    | ⟨1, _⟩ => exact (rhs_mmA_1 _ _).trans hk)
  rw [el, er]

/-! ### The product `mmB`: operand indices of the dimension numbers, axis by axis

Both operands are contracted along their axis `1`; the left operand's axis `0` is the output's axis `0`, the right
operand's axis `0` is the output's axis `1`. -/

private theorem lhs_mmB_0 (i : S1024x1024.Idx) (q : dot_S1024x4_S1024x4_S1024x1024_1_1_0_0_n_n.contr.Idx) :
    (dot_S1024x4_S1024x4_S1024x1024_1_1_0_0_n_n.lhsIdx i q 0).val = (i 0).val := by
  unfold DotDims.lhsIdx
  rw [dif_neg (show ¬(0 : Fin S1024x4.rank) ∈ dot_S1024x4_S1024x4_S1024x1024_1_1_0_0_n_n.lhsBatch by decide), dif_pos (show (0 : Fin S1024x4.rank) ∈ dot_S1024x4_S1024x4_S1024x1024_1_1_0_0_n_n.lhsNonContracting by decide)]
  rfl
private theorem lhs_mmB_1 (i : S1024x1024.Idx) (q : dot_S1024x4_S1024x4_S1024x1024_1_1_0_0_n_n.contr.Idx) :
    (dot_S1024x4_S1024x4_S1024x1024_1_1_0_0_n_n.lhsIdx i q 1).val = (q ⟨0, by decide⟩).val :=
  dot_S1024x4_S1024x4_S1024x1024_1_1_0_0_n_n.lhsIdx_val_of_single rfl i q
private theorem rhs_mmB_0 (i : S1024x1024.Idx) (q : dot_S1024x4_S1024x4_S1024x1024_1_1_0_0_n_n.contr.Idx) :
    (dot_S1024x4_S1024x4_S1024x1024_1_1_0_0_n_n.rhsIdx i q 0).val = (i 1).val := by
  unfold DotDims.rhsIdx
  rw [dif_neg (show ¬(0 : Fin S1024x4.rank) ∈ dot_S1024x4_S1024x4_S1024x1024_1_1_0_0_n_n.rhsBatch by decide), dif_pos (show (0 : Fin S1024x4.rank) ∈ dot_S1024x4_S1024x4_S1024x1024_1_1_0_0_n_n.rhsNonContracting by decide)]
  rfl
private theorem rhs_mmB_1 (i : S1024x1024.Idx) (q : dot_S1024x4_S1024x4_S1024x1024_1_1_0_0_n_n.contr.Idx) :
    (dot_S1024x4_S1024x4_S1024x1024_1_1_0_0_n_n.rhsIdx i q 1).val = (q ⟨0, by decide⟩).val :=
  dot_S1024x4_S1024x4_S1024x1024_1_1_0_0_n_n.rhsIdx_val_of_single rfl i q

/-- The product into the zero accumulator, at `(p, q)`: the sum over the contracted coordinate of row `p` of the left
    operand times row `q` of the right one. The sum over the record's contraction index is carried to the sum over the
    coordinate by the bijection between a one-axis index and its coordinate. -/
private theorem mmB_apply (l : FVec Ideal S1024x4 .bf16) (r : FVec Ideal S1024x4 .bf16) (p : Fin 1024) (q : Fin 1024) :
    matmul dot_S1024x4_S1024x4_S1024x1024_1_1_0_0_n_n none l r (constant (F := Ideal) S1024x1024 .f32 0x00000000#32) (ix2 p q)
      = ∑ kk : Fin 4, l (ix2 p kk) * r (ix2 q kk) := by
  simp only [matmul]
  rw [Ideal.matmul_constant_zero_apply, ← Equiv.sum_comp (contrEquiv1 dot_S1024x4_S1024x4_S1024x1024_1_1_0_0_n_n 4 rfl rfl).symm]
  refine Finset.sum_congr rfl fun k _ => ?_
  have hk := contrEquiv1_symm_val dot_S1024x4_S1024x4_S1024x1024_1_1_0_0_n_n 4 rfl rfl k
  have el : dot_S1024x4_S1024x4_S1024x1024_1_1_0_0_n_n.lhsIdx (ix2 p q) ((contrEquiv1 dot_S1024x4_S1024x4_S1024x1024_1_1_0_0_n_n 4 rfl rfl).symm k) = ix2 p k := funext fun a => Fin.ext (by
    match a with
    | ⟨0, _⟩ => exact lhs_mmB_0 _ _
    | ⟨1, _⟩ => exact (lhs_mmB_1 _ _).trans hk)
  have er : dot_S1024x4_S1024x4_S1024x1024_1_1_0_0_n_n.rhsIdx (ix2 p q) ((contrEquiv1 dot_S1024x4_S1024x4_S1024x1024_1_1_0_0_n_n 4 rfl rfl).symm k) = ix2 q k := funext fun a => Fin.ext (by
    match a with
    | ⟨0, _⟩ => exact rhs_mmB_0 _ _
    | ⟨1, _⟩ => exact (rhs_mmB_1 _ _).trans hk)
  rw [el, er]

/-! ### The input block on its way into a product: the cast to the same shape and the narrowing are both the identity -/

private theorem pay3_apply (x : Vec Ideal S1024x512 .f32) (j : S1024x512.Idx) : k0_pay3 (F := Ideal) x j = x j := by
  unfold k0_pay3
  rw [truncf_apply, shapeCast_self]

/-! ### The three updates -/

theorem pay4_apply (x w : Vec Ideal S1024x512 .f32) (acc : Vec Ideal S1024x1024 .f32) (p q : Fin 1024) :
    k0_pay4 (F := Ideal) x w acc (ix2 p q) = acc (ix2 p q) + ∑ kk : Fin 512, x (ix2 p kk) * w (ix2 q kk) := by
  unfold k0_pay4
  rw [shapeCast_self, addf_apply, mmW_apply]
  simp only [pay3_apply, truncf_apply]

theorem pay5_apply (x : Vec Ideal S1024x512 .f32) (a : Vec Ideal S4x512 .f32) (la : Vec Ideal S1024x4 .f32)
    (p : Fin 1024) (r : Fin 4) :
    k0_pay5 (F := Ideal) x a la (ix2 p r) = la (ix2 p r) + ∑ kk : Fin 512, x (ix2 p kk) * a (ix2 r kk) := by
  unfold k0_pay5
  rw [shapeCast_self, addf_apply, mmA_apply]
  simp only [pay3_apply, truncf_apply]

theorem pay6_apply (la b : Vec Ideal S1024x4 .f32) (acc : Vec Ideal S1024x1024 .f32) (p q : Fin 1024) :
    k0_pay6 (F := Ideal) la b acc (ix2 p q)
      = acc (ix2 p q) + (∑ r : Fin 4, la (ix2 p r) * b (ix2 q r)) * Ideal.ofBits .f32 0x40800000#32 := by
  unfold k0_pay6
  rw [addf_apply, mulf_apply, broadcast_apply, mmB_apply]
  simp only [truncf_apply]
  rfl

end Cert.KernelIdeal.Payload

end
-- ==== Proof.Spec.lean ====
/-
  The mathematics both programs compute, over the extended reals.

  A low-rank-adapted linear layer: for a row `x` of the flattened input, a row `w` of the weight, the `R` rows
  `a r` of the down-projection and the entries `b r` of one row of the up-projection,

      out = (∑ₑ x e · w e) + (∑ᵣ (∑ₑ x e · a r e) · b r) · s .

  The kernel forms each contraction over `e` block by block (eight blocks of 512 along the contraction axis, added
  into an accumulator that starts at zero); the reference contracts the whole axis at once. Addition of extended
  reals is commutative and associative, so the block-wise partial sums are initial segments of one sum: the sums are
  written here over `Finset.range`, with the product at position `e` extended by zero past the end of the row.
-/
import Idealize.ShloMosaic.PureOps.Ideal
import Idealize.ShloMosaic.Lib.ValueIdx

noncomputable section

namespace LoraSpec

open Finset Idealize.ShloMosaic Idealize.ShloMosaic.ValueIdx

/-- The product of two rows of length `K` at position `e`, as a function of every natural number: zero past the end. -/
def dotTerm {K : ℕ} (u v : Fin K → EReal) (e : ℕ) : EReal :=
  if h : e < K then u ⟨e, h⟩ * v ⟨e, h⟩ else 0

theorem dotTerm_of_lt {K : ℕ} (u v : Fin K → EReal) {e : ℕ} (h : e < K) :
    dotTerm u v e = u ⟨e, h⟩ * v ⟨e, h⟩ := dif_pos h

/-- The contraction of two whole rows is the sum of the products over the initial segment `0 … K - 1`. -/
theorem sum_fin_eq_range {K : ℕ} (u v : Fin K → EReal) :
    ∑ k : Fin K, u k * v k = ∑ e ∈ range K, dotTerm u v e := by
  rw [← Fin.sum_univ_eq_sum_range (fun e => dotTerm u v e) K]
  exact Finset.sum_congr rfl fun k _ => (dotTerm_of_lt u v k.isLt).symm

/-- The partial sum over the first `b` positions plus the contraction of the block of `n` positions that starts at `b`
    is the partial sum over the first `b + n` positions. -/
theorem range_add_block {K : ℕ} (u v : Fin K → EReal) (b n : ℕ) (hb : b + n ≤ K) :
    (∑ e ∈ range b, dotTerm u v e)
        + ∑ kk : Fin n, u ⟨b + kk.val, by have := kk.isLt; omega⟩ * v ⟨b + kk.val, by have := kk.isLt; omega⟩
      = ∑ e ∈ range (b + n), dotTerm u v e := by
  rw [Finset.sum_range_add, ← Fin.sum_univ_eq_sum_range (fun e => dotTerm u v (b + e)) n]
  congr 1
  exact Finset.sum_congr rfl fun kk _ => (dotTerm_of_lt u v (by have := kk.isLt; omega)).symm

/-- One output entry of the adapted layer, from the rows it depends on. -/
def loraEntry {K R : ℕ} (x w : Fin K → EReal) (a : Fin R → Fin K → EReal) (b : Fin R → EReal) (s : EReal) : EReal :=
  (∑ e ∈ range K, dotTerm x w e) + (∑ r : Fin R, (∑ e ∈ range K, dotTerm x (a r) e) * b r) * s

/-- The scale `alpha / rank = 4`, as the binary32 word both programs carry. -/
abbrev scale : EReal := Ideal.ofBits .f32 0x40800000#32

/-- The whole result, index by index: entry `(b, l, o)` is the adapted layer at row `(b, l)` of the input, row `o` of the
    weight and of the up-projection. -/
def result (X : (⟨3, ![2, 4096, 4096]⟩ : Shape).Idx → EReal) (W : (⟨2, ![4096, 4096]⟩ : Shape).Idx → EReal)
    (A : (⟨2, ![4, 4096]⟩ : Shape).Idx → EReal) (B : (⟨2, ![4096, 4]⟩ : Shape).Idx → EReal) :
    (⟨3, ![2, 4096, 4096]⟩ : Shape).Idx → EReal :=
  fun i => loraEntry (fun e => X (ix3 (i 0) (i 1) e)) (fun e => W (ix2 (i 2) e)) (fun r e => A (ix2 r e))
    (fun r => B (ix2 (i 2) r)) scale

end LoraSpec

end
-- ==== Proof.Invariant.lean ====
/-
  The accumulators after each grid step, in closed form, and the output block at a last step.

  After step `n` the main accumulator holds, at `(p, q)`, the contraction of the input row `rowOf n p` with the
  weight row `colOf n q` over the first `(n % 8 + 1) · 512` positions of the contraction axis, and the low-rank
  accumulator holds, at `(p, r)`, the contraction of the same input row with row `r` of the down-projection over the
  same positions: a first step starts from zero and adds the first block of 512 products; every other step adds the
  next block to what the step before left, and along a run of eight steps the rows do not change. At a last step
  (`n % 8 = 7`) all 4096 positions are in, and the output block holds the adapted layer's entry.
-/
import proofs.«142821_j91122026152535_1_alg».proof.Proof.Steps
import proofs.«142821_j91122026152535_1_alg».proof.Proof.Payload
import proofs.«142821_j91122026152535_1_alg».proof.Proof.Spec

noncomputable section

namespace Cert.KernelIdeal.Invariant

open Finset Idealize.ShloMosaic Idealize.ShloMosaic.TcCoe Idealize.SL.Sem Idealize.ShloMosaic.ValueIdx
open Cert.KernelIdeal Cert.KernelIdeal.Gen Cert.KernelIdeal.Blocks Cert.KernelIdeal.Steps Cert.KernelIdeal.Payload LoraSpec

variable (m : (ℓ : Loc nD τ sig) → Buf (Elt Ideal) ℓ)

/-- A row of the flattened input, of the weight, of the down-projection, as a function of the position. -/
abbrev xrow (c : Dev nD) (r : Fin 8192) : Fin 4096 → EReal := fun e => xarr m c (ix2 r e)
abbrev wrow (c : Dev nD) (o : Fin 4096) : Fin 4096 → EReal := fun e => warr m c (ix2 o e)
abbrev arow (c : Dev nD) (r : Fin 4) : Fin 4096 → EReal := fun e => aarr m c (ix2 r e)
/-- A row of the up-projection, as a function of the rank index. -/
abbrev brow (c : Dev nD) (o : Fin 4096) : Fin 4 → EReal := fun r => barr m c (ix2 o r)

/-- The partial sum before step `n`'s block plus that block's products is the partial sum after it. -/
theorem partial_step (u v : Fin 4096 → EReal) (n : ℕ) :
    (∑ e ∈ range (n % 8 * 512), dotTerm u v e) + ∑ kk : Fin 512, u (posOf n kk) * v (posOf n kk)
      = ∑ e ∈ range ((n % 8 + 1) * 512), dotTerm u v e := by
  have hb : n % 8 * 512 + 512 ≤ 4096 := by have := Nat.mod_lt n (by norm_num : 0 < 8); omega
  rw [show (n % 8 + 1) * 512 = n % 8 * 512 + 512 by ring]
  exact range_add_block u v (n % 8 * 512) 512 hb

/-- The main accumulator's update at `(p, q)`, over rows of the whole arrays. -/
theorem acc_update (c : Dev nD) (t : Fin cfg0.N) (prev : Vec Ideal S1024x1024 .f32) (p q : Fin 1024) :
    k0_pay4 (F := Ideal) (xblk m c t) (wblk m c t) prev (ix2 p q)
      = prev (ix2 p q) + ∑ kk : Fin 512, xrow m c (rowOf t.val p) (posOf t.val kk) * wrow m c (colOf t.val q) (posOf t.val kk) := by
  refine (pay4_apply (xblk m c t) (wblk m c t) prev p q).trans ?_
  refine congrArg (fun s => prev (ix2 p q) + s) (Finset.sum_congr rfl fun kk _ => ?_)
  rw [xblk_apply m c t p kk, wblk_apply m c t q kk]

/-- The low-rank accumulator's update at `(p, r)`, over rows of the whole arrays. -/
theorem low_update (c : Dev nD) (t : Fin cfg0.N) (prev : Vec Ideal S1024x4 .f32) (p : Fin 1024) (r : Fin 4) :
    k0_pay5 (F := Ideal) (xblk m c t) (ablk m c t) prev (ix2 p r)
      = prev (ix2 p r) + ∑ kk : Fin 512, xrow m c (rowOf t.val p) (posOf t.val kk) * arow m c r (posOf t.val kk) := by
  refine (pay5_apply (xblk m c t) (ablk m c t) prev p r).trans ?_
  refine congrArg (fun s => prev (ix2 p r) + s) (Finset.sum_congr rfl fun kk _ => ?_)
  rw [xblk_apply m c t p kk, ablk_apply m c t r kk]

/-- What the two accumulators hold after step `n`. -/
def Holds (c : Dev nD) (n : ℕ) (h : n < cfg0.N) : Prop :=
  (∀ p q : Fin 1024, accAt m c n h (ix2 p q)
      = ∑ e ∈ range ((n % 8 + 1) * 512), dotTerm (xrow m c (rowOf n p)) (wrow m c (colOf n q)) e)
  ∧ (∀ (p : Fin 1024) (r : Fin 4), lowAt m c n h (ix2 p r)
      = ∑ e ∈ range ((n % 8 + 1) * 512), dotTerm (xrow m c (rowOf n p)) (arow m c r) e)

/-- At a first step: zero plus the first block. -/
theorem holds_first (c : Dev nD) (n : ℕ) (h : n < cfg0.N) (h0 : n % 8 = 0) : Holds m c n h := by
  obtain ⟨ea, el⟩ := Steps.reset m c ⟨n, h⟩ h0
  have hz : ∀ u v : Fin 4096 → EReal, (0 : EReal) = ∑ e ∈ range (n % 8 * 512), dotTerm u v e := fun u v => by
    rw [h0, Nat.zero_mul, Finset.sum_range_zero]
  constructor
  · intro p q
    show accAt m c (⟨n, h⟩ : Fin cfg0.N).val (⟨n, h⟩ : Fin cfg0.N).isLt (ix2 p q) = _
    rw [ea, acc_update, pay1_apply, hz (xrow m c (rowOf n p)) (wrow m c (colOf n q))]
    exact partial_step _ _ n
  · intro p r
    show lowAt m c (⟨n, h⟩ : Fin cfg0.N).val (⟨n, h⟩ : Fin cfg0.N).isLt (ix2 p r) = _
    rw [el, low_update, pay2_apply, hz (xrow m c (rowOf n p)) (arow m c r)]
    exact partial_step _ _ n

/-- At any other step: what the step before left plus the next block; the rows are those of the step before. -/
theorem holds_next (c : Dev nD) (n : ℕ) (h : n + 1 < cfg0.N) (h0 : ¬(n + 1) % 8 = 0)
    (ih : Holds m c n (Nat.lt_of_succ_lt h)) : Holds m c (n + 1) h := by
  obtain ⟨ea, el⟩ := Steps.step m c ⟨n + 1, h⟩ h0
  have hrow : ∀ p, rowOf (n + 1) p = rowOf n p := fun p => Fin.ext (by show (n + 1) / 32 % 8 * 1024 + p.val = n / 32 % 8 * 1024 + p.val; omega)
  have hcol : ∀ q, colOf (n + 1) q = colOf n q := fun q => Fin.ext (by show (n + 1) / 8 % 4 * 1024 + q.val = n / 8 % 4 * 1024 + q.val; omega)
  have hlen : (n % 8 + 1) * 512 = (n + 1) % 8 * 512 := by omega
  constructor
  · intro p q
    show accAt m c (⟨n + 1, h⟩ : Fin cfg0.N).val (⟨n + 1, h⟩ : Fin cfg0.N).isLt (ix2 p q) = _
    rw [ea, acc_update]
    show accAt m c n _ (ix2 p q) + _ = _
    rw [ih.1 p q, ← hrow p, ← hcol q, hlen]
    exact partial_step _ _ (n + 1)
  · intro p r
    show lowAt m c (⟨n + 1, h⟩ : Fin cfg0.N).val (⟨n + 1, h⟩ : Fin cfg0.N).isLt (ix2 p r) = _
    rw [el, low_update]
    show lowAt m c n _ (ix2 p r) + _ = _
    rw [ih.2 p r, ← hrow p, hlen]
    exact partial_step _ _ (n + 1)

/-- By induction on the step. -/
theorem holds (c : Dev nD) : ∀ (n : ℕ) (h : n < cfg0.N), Holds m c n h
  | 0, h => holds_first m c 0 h rfl
  | n + 1, h => by
    by_cases h0 : (n + 1) % 8 = 0
    · exact holds_first m c (n + 1) h h0
    · exact holds_next m c n h h0 (holds c n (Nat.lt_of_succ_lt h))

/-- The output block at a last step: at `(p, q)` the adapted layer's entry for the input row `rowOf t p` and the
    weight and up-projection rows `colOf t q`. -/
theorem out_last (c : Dev nD) (t : Fin cfg0.N) (h1 : t.val % 8 = 7) (p q : Fin 1024) :
    outAt m c t.val t.isLt (ix2 p q)
      = loraEntry (xrow m c (rowOf t.val p)) (wrow m c (colOf t.val q)) (arow m c) (brow m c (colOf t.val q)) scale := by
  obtain ⟨ha, hl⟩ := holds m c t.val t.isLt
  have hlen : (t.val % 8 + 1) * 512 = 4096 := by omega
  rw [Steps.last m c t h1]
  refine (pay6_apply (lowAt m c t.val t.isLt) (bblk m c t) (accAt m c t.val t.isLt) p q).trans ?_
  unfold loraEntry
  rw [ha p q, hlen]
  refine congrArg (fun s => (∑ e ∈ range 4096, dotTerm (xrow m c (rowOf t.val p)) (wrow m c (colOf t.val q)) e) + s * scale)
    (Finset.sum_congr rfl fun r _ => ?_)
  rw [hl p r, hlen, bblk_apply m c t q r]

end Cert.KernelIdeal.Invariant

end
-- ==== Proof.KernelValue.lean ====
/-
  What the kernel's result array holds after the run.

  The output's blocks are written back at the last step of each run of eight grid steps; block `(n / 32, n / 8 % 4)`
  of the flattened result is then the adapted layer's entries for the rows that block covers, so every written-back block
  is a block of ONE whole-array function `flat`, and the 8 × 4 blocks tile the array. The program's last line reshapes
  the flattened `[8192, 4096]` result to `[2, 4096, 4096]`, and its first line had flattened the input the same way:
  row `4096 · b + l` of the flattened arrays is row `(b, l)`, so the result is the specification's.
-/
import proofs.«142821_j91122026152535_1_alg».proof.Proof.Invariant

noncomputable section

namespace Cert.KernelIdeal.KernelValue

open Finset Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Steps Cert.KernelIdeal.Invariant LoraSpec

variable (m : (ℓ : Loc nD τ sig) → Buf (Elt Ideal) ℓ) (ρ : Dev nD → PrngReg)

/-- The flattened result: entry `(row, o)` is the adapted layer at row `row` of the flattened input and row `o` of the
    weight and of the up-projection. -/
def flat (c : Dev nD) : S8192x4096.Idx → EReal := fun j =>
  loraEntry (xrow m c (j 0)) (wrow m c (j 1)) (arow m c) (brow m c (j 1)) scale

/-- The output block at a last step, entry by entry, is `flat` at the block's offset plus the local index. -/
theorem out_block (c : Dev nD) (t : Fin cfg0.N) (h1 : t.val % 8 = 7) (y : S1024x1024.Idx) :
    outAt m c t.val t.isLt y = flat m c (ix2 (rowOf t.val (y 0)) (colOf t.val (y 1))) := by
  obtain ⟨p, q, rfl⟩ : ∃ (p : Fin 1024) (q : Fin 1024), y = ix2 p q := ⟨y 0, y 1, eq_ix2 y⟩
  exact out_last m c t h1 p q

/-- What a last step writes back is its block of `flat`. -/
theorem flushed_eq (c : Dev nD) (t : Fin cfg0.N) (hf : (cfg0.win 4).flush t = true) :
    (dats m 0 c).flushed 4 t = ((cfg0.win 4).blk t).view.read (Elt Ideal) (flat m c) := by
  have h1 : t.val % 8 = 7 := (flush0_4 t).mp hf
  have hN : t.val < 256 := lt_of_lt_of_eq t.isLt N_0
  show (cfg0.win 4).cut (grid0.coords t) ((dats m 0 c).after 4 t) = _
  rw [after0_4]
  funext y
  refine (out_block m c t h1 y).trans ?_
  rw [View.read_apply]
  show flat m c _ = flat m c _
  congr 1
  funext a
  apply Fin.ext
  match a with
  | ⟨0, _⟩ => show t.val / 32 % 8 * 1024 + (y 0).val = win0_4.index t 0 * 1024 + 1 * (y 0).val; rw [(index4 t).1]; omega
  | ⟨1, _⟩ => show t.val / 8 % 4 * 1024 + (y 1).val = win0_4.index t 1 * 1024 + 1 * (y 1).val; rw [(index4 t).2]; omega

/-- An index of the flattened result is in step `t`'s block iff each coordinate is in the block's range on its axis. -/
theorem mem_blk (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v1).slice (win0_4.rect t)).set ↔ _
  rw [View.set_slice_whole, Rect.mem_set_unit]
  exact Iff.rfl

/-- Every index of the flattened result is in the block some last step writes back: the step of its row tile and column
    tile whose position along the contraction axis is the last. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hlt : (i 0).val / 1024 * 32 + (i 1).val / 1024 * 8 + 7 < cfg0.N := by rw [show cfg0.N = 256 from N_0]; omega
  refine ⟨⟨(i 0).val / 1024 * 32 + (i 1).val / 1024 * 8 + 7, hlt⟩, (flush0_4 _).mpr (by show ((i 0).val / 1024 * 32 + (i 1).val / 1024 * 8 + 7) % 8 = 7; omega), ?_⟩
  rw [mem_blk]
  intro a
  match a with
  | ⟨0, _⟩ =>
    show win0_4.index ⟨_, hlt⟩ 0 * 1024 ≤ (i 0).val ∧ (i 0).val < win0_4.index ⟨_, hlt⟩ 0 * 1024 + 1024
    rw [(index4 ⟨_, hlt⟩).1]
    show ((i 0).val / 1024 * 32 + (i 1).val / 1024 * 8 + 7) / 32 * 1024 ≤ (i 0).val ∧ (i 0).val < ((i 0).val / 1024 * 32 + (i 1).val / 1024 * 8 + 7) / 32 * 1024 + 1024
    omega
  | ⟨1, _⟩ =>
    show win0_4.index ⟨_, hlt⟩ 1 * 1024 ≤ (i 1).val ∧ (i 1).val < win0_4.index ⟨_, hlt⟩ 1 * 1024 + 1024
    rw [(index4 ⟨_, hlt⟩).2]
    show ((i 0).val / 1024 * 32 + (i 1).val / 1024 * 8 + 7) / 8 % 4 * 1024 ≤ (i 1).val ∧ (i 1).val < ((i 0).val / 1024 * 32 + (i 1).val / 1024 * 8 + 7) / 8 % 4 * 1024 + 1024
    omega

/-- So the flattened result array ends holding `flat`. -/
theorem final (c : Dev nD) : (dats m 0 c).arrAt 4 cfg0.N = flat m c :=
  (dats m 0 c).arrAt_eq_of_cover 4 (flat m c) (flushed_eq m c) cover

/-- The flattened input the kernel reads is the program's first line: the input reshaped. -/
theorem xarr_eq (c : Dev nD) :
    xarr m c = shapeCast S8192x4096 (m ((c : Thread nD τ).loc main_arg0)) shapeCasts_S2x4096x4096_S8192x4096 := by
  show StableHlo.after hostOps0 (fun b => m (c, b)) (Proc.devRef .tc main_v0) = _
  after_results
  rfl

/-- Row `4096 · b + l` of the flattened input is row `(b, l)` of the input. -/
theorem xarr_apply (c : Dev nD) (b : Fin 2) (l : Fin 4096) (e : Fin 4096) :
    xarr m c (ix2 ⟨b.val * 4096 + l.val, by have := b.isLt; have := l.isLt; omega⟩ e) = m ((c : Thread nD τ).loc main_arg0) (ix3 b l e) := by
  rw [xarr_eq]
  exact shapeCast_apply _ _ _ _ (by
    show (S2x4096x4096.rowMajor (ix3 b l e)).val = (S8192x4096.rowMajor (ix2 ⟨b.val * 4096 + l.val, _⟩ e)).val
    rw [Shape.rowMajor_val_three, Shape.rowMajor_val_two]
    rfl)

/-- The program's result: the flattened result reshaped by the program's last line. -/
theorem tail_eq (c : Dev nD) :
    Pipeline.afterTail₀ cfgs (dats m) 0 (V0 m) [hostOps1] c main_v2
      = shapeCast S2x4096x4096 (flat m c) shapeCasts_S8192x4096_S2x4096x4096 := by
  unfold Pipeline.afterTail₀
  show StableHlo.after hostOps1 _ (Proc.devRef .tc main_v2) = _
  after_results
  rw [Pipeline.withArrays_arr spec0 launch0.win.arr_inj c _ _ 4, final]
  rfl

/-- The reshaped result, index by index, is the specification's function of the four arguments. -/
theorem result_eq (c : Dev nD) :
    shapeCast S2x4096x4096 (flat m c) shapeCasts_S8192x4096_S2x4096x4096
      = LoraSpec.result (m ((c : Thread nD τ).loc main_arg0)) (m ((c : Thread nD τ).loc main_arg1))
          (m ((c : Thread nD τ).loc main_arg2)) (m ((c : Thread nD τ).loc main_arg3)) := by
  funext i
  obtain ⟨b, l, o, rfl⟩ : ∃ (b : Fin 2) (l : Fin 4096) (o : Fin 4096), i = ix3 b l o := ⟨i 0, i 1, i 2, eq_ix3 i⟩
  have hb := b.isLt
  have hl := l.isLt
  rw [shapeCast_apply (flat m c) shapeCasts_S8192x4096_S2x4096x4096 (ix3 b l o)
    (ix2 ⟨b.val * 4096 + l.val, by omega⟩ o) (by rw [Shape.rowMajor_val_three, Shape.rowMajor_val_two]; rfl)]
  unfold flat LoraSpec.result
  have hx : xrow m c ⟨b.val * 4096 + l.val, by omega⟩ = fun e => m ((c : Thread nD τ).loc main_arg0) (ix3 b l e) :=
    funext fun e => xarr_apply m c b l e
  have hw : wrow m c o = fun e => m ((c : Thread nD τ).loc main_arg1) (ix2 o e) :=
    funext fun e => congrFun (V_main_arg1 m c) (ix2 o e)
  have ha : arow m c = fun r e => m ((c : Thread nD τ).loc main_arg2) (ix2 r e) :=
    funext fun r => funext fun e => congrFun (V_main_arg2 m c) (ix2 r e)
  have hbr : brow m c o = fun r => m ((c : Thread nD τ).loc main_arg3) (ix2 o r) :=
    funext fun r => congrFun (V_main_arg3 m c) (ix2 o r)
  show loraEntry (xrow m c ⟨b.val * 4096 + l.val, _⟩) (wrow m c o) (arow m c) (brow m c o) scale = _
  rw [hx, hw, ha, hbr]

/-- THE RUN, READ: every weakly fair execution of the kernel's program ends with its result at the specification's
    function of the four arguments, the arguments unchanged. -/
theorem run : θ_run defs (onTc (τ := τ) (main (F := Ideal))) ⟨m, fun _ => 0, ρ⟩ fun r => ∀ c : Dev nD,
      r.2.mem ((c.tc : Thread nD τ).loc main_v2)
        = LoraSpec.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KernelValue

end
-- ==== Proof.RefSide.lean ====
/-
  The reference's result is the specification's function of the four arguments.

  The reference contracts the whole input axis at once (three `dot_general`s), scales the low-rank product by the
  constant 4 and adds. Read at an index `(b, l, o)` each contraction is a sum over the contracted axis; written over
  the initial segment `0 … K - 1` of the naturals it is the specification's entry.
-/
import proofs.«142821_j91122026152535_1_alg».proof.Proof.Gen.ReferenceIdeal.Read
import proofs.«142821_j91122026152535_1_alg».proof.Proof.Spec
import Idealize.ShloMosaic.Lib.ValueIdx
import Idealize.ShloMosaic.Lib.Pipeline.Value
import Idealize.ShloMosaic.PureOps.Ideal.Laws

noncomputable section

namespace Cert.ReferenceIdeal.RefSide

open Idealize.ShloMosaic Idealize.ShloMosaic.ValueIdx Cert.ReferenceIdeal Cert.ReferenceIdeal.Gen

/-! The index at which each contraction reads its operands, by coordinates. -/

/-- The first contraction reads the input at row `(b, l)`, position `k`. -/
private theorem lidx_v0 (i : S2x4096x4096.Idx) (k : Fin 4096) :
    Read.lidx_main_v0 i k = ix3 (i 0) (i 1) k := by
  funext a; match a with | ⟨0, _⟩ => rfl | ⟨1, _⟩ => rfl | ⟨2, _⟩ => rfl

/-- The first contraction reads the weight at row `o`, position `k`. -/
private theorem ridx_v0 (i : S2x4096x4096.Idx) (k : Fin 4096) :
    Read.ridx_main_v0 i k = ix2 (i 2) k := by
  funext a; match a with | ⟨0, _⟩ => rfl | ⟨1, _⟩ => rfl

/-- The outer low-rank contraction reads the up-projection at row `o`, position `r`. -/
private theorem ridx_v2 (i : S2x4096x4096.Idx) (r : Fin 4) :
    Read.ridx_main_v2 i r = ix2 (i 2) r := by
  funext a; match a with | ⟨0, _⟩ => rfl | ⟨1, _⟩ => rfl

/-- The inner low-rank contraction, read where the outer one reads it, reads the input at row `(b, l)`, position `k`. -/
private theorem lidx_v1_v2 (i : S2x4096x4096.Idx) (r : Fin 4) (k : Fin 4096) :
    Read.lidx_main_v1 (Read.lidx_main_v2 i r) k = ix3 (i 0) (i 1) k := by
  funext a; match a with | ⟨0, _⟩ => rfl | ⟨1, _⟩ => rfl | ⟨2, _⟩ => rfl

/-- … and the down-projection at row `r`, position `k`. -/
private theorem ridx_v1_v2 (i : S2x4096x4096.Idx) (r : Fin 4) (k : Fin 4096) :
    Read.ridx_main_v1 (Read.lidx_main_v2 i r) k = ix2 r k := by
  funext a; match a with | ⟨0, _⟩ => rfl | ⟨1, _⟩ => rfl

theorem ref_eq (X : (⟨S2x4096x4096, .f32⟩ : BufTy).Contents (Elt Ideal)) (W : (⟨S4096x4096, .f32⟩ : BufTy).Contents (Elt Ideal))
    (A : (⟨S4x4096, .f32⟩ : BufTy).Contents (Elt Ideal)) (B : (⟨S4096x4, .f32⟩ : BufTy).Contents (Elt Ideal)) :
    Cert.ReferenceIdeal.Read.val_main_v5 (F := Ideal) X W A B = LoraSpec.result X W A B := by
  funext i
  -- the reference at `i`: the first contraction plus the scaled low-rank product
  rw [Read.val_main_v5_apply, Read.val_main_v0_apply, Read.val_main_v4_apply, Read.val_main_v2_apply,
    Read.val_main_v3_apply, Read.val_main_cst_apply, Ideal.addf_def, Ideal.mulf_def, Ideal.ofBits_def]
  -- the specification at `i`, its range sums folded back into sums over the axis
  unfold LoraSpec.result LoraSpec.loraEntry
  rw [← LoraSpec.sum_fin_eq_range]
  congr 1
  · exact Finset.sum_congr rfl fun k _ => by rw [lidx_v0, ridx_v0]; rfl
  · congr 1
    refine Finset.sum_congr rfl fun r _ => ?_
    rw [Read.val_main_v1_apply, ← LoraSpec.sum_fin_eq_range, ridx_v2]
    congr 1
    exact Finset.sum_congr rfl fun k _ => by rw [lidx_v1_v2, ridx_v1_v2]; rfl

end Cert.ReferenceIdeal.RefSide

end
-- ==== Proof.lean ====
/-
  The certificate: a low-rank-adapted linear layer, tiled kernel against the whole-array reference.

  Both programs compute, for every row `(b, l)` of the input and every output feature `o`,

      out[b, l, o] = (∑ₑ x[b, l, e] · W[o, e]) + (∑ᵣ (∑ₑ x[b, l, e] · A[r, e]) · B[o, r]) · 4 .

  The kernel walks an 8 × 4 × 8 grid over row tiles, feature tiles and blocks of the contraction axis, adding each
  block's products into two accumulators that it resets at the first block and reads out at the last; the reference
  contracts the whole axis at once. Over the extended reals addition is commutative and associative, so the block-wise
  sums are initial segments of the reference's sums and the two results agree at every index — no finiteness of the
  inputs is used. The format changes of the kernel (float32 to bfloat16 before each product) are the identity at the
  ideal instance, and the ideal pass rewrote nothing, so the idealization claim is trivial.
-/
import proofs.«142821_j91122026152535_1_alg».proof.Defs
import proofs.«142821_j91122026152535_1_alg».proof.Proof.Gen.Kernel
import proofs.«142821_j91122026152535_1_alg».proof.Proof.Gen.Kernel.Skeleton
import proofs.«142821_j91122026152535_1_alg».proof.Proof.Gen.Kernel.Launch
import proofs.«142821_j91122026152535_1_alg».proof.Proof.Gen.Kernel.Points
import proofs.«142821_j91122026152535_1_alg».proof.Proof.Gen.Kernel.Frame
import proofs.«142821_j91122026152535_1_alg».proof.Proof.Gen.KernelIdeal
import proofs.«142821_j91122026152535_1_alg».proof.Proof.Gen.KernelIdeal.Skeleton
import proofs.«142821_j91122026152535_1_alg».proof.Proof.Gen.KernelIdeal.Launch
import proofs.«142821_j91122026152535_1_alg».proof.Proof.Gen.KernelIdeal.Points
import proofs.«142821_j91122026152535_1_alg».proof.Proof.Gen.KernelIdeal.Frame
import proofs.«142821_j91122026152535_1_alg».proof.Proof.Gen.ReferenceIdeal
import proofs.«142821_j91122026152535_1_alg».proof.Proof.Gen.ReferenceIdeal.Run
import proofs.«142821_j91122026152535_1_alg».proof.Proof.Gen.ReferenceIdeal.Read
import proofs.«142821_j91122026152535_1_alg».proof.Proof.Gen.Pre_finite_inputs
import proofs.«142821_j91122026152535_1_alg».proof.Proof.KernelValue
import proofs.«142821_j91122026152535_1_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with their result at the specification's function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => LoraSpec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefSide.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
